-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64 : Shape := ⟨1, ![64]⟩
abbrev S64x64 : Shape := ⟨2, ![64, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S2x1600000 32) (main_v33 : IVec S_ 1) : IVec S_ 1 :=
  let main_v34 : IVec S1x1600000 32 := (extractStridedSlice S1x1600000 ![0, 0] · slices_S2x1600000_S1x1600000_0_0) main_arg7
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg7
  let main_v39 : IVec S1600000 32 := shapeCast S1600000 main_v38 shapeCasts_S1x1600000_S1600000
  let main_c_13 : IVec S_ 32 := constantI S_ 32 50000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg4 : FVec F S64x64 .f32) (main_arg5 : FVec F S64 .f32) (main_arg6 : FVec F S64x64 .f32) (main_arg7 : IVec S2x1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S50000x64 .f32) (main_arg1 : FVec F S50000x64 .f32) (main_arg2 : FVec F S64 .f32) (main_arg3 : FVec F S64 .f32) (main_arg4 : FVec F S64x64 .f32) (main_arg5 : FVec F S64 .f32) (main_arg6 : FVec F S64x64 .f32) (main_arg7 : IVec S2x1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S50000x64 : Shape := ⟨2, ![50000, 64]⟩
abbrev S64 : Shape := ⟨1, ![64]⟩
abbrev S64x64 : Shape := ⟨2, ![64, 64]⟩
abbrev S2x1600000 : Shape := ⟨2, ![2, 1600000]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S50000 : Shape := ⟨1, ![50000]⟩
abbrev S50000x1 : Shape := ⟨2, ![50000, 1]⟩

abbrev nBuf : Space → Nat
  | .hbm => 57
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S2x1600000, .i32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S50000x64, .f32⟩
  | .hbm, ⟨12, _⟩ => ⟨S50000x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x64, .f32⟩
  | .hbm, ⟨36, _⟩ => ⟨S1600000x64, .i1⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S50000x64, .f32⟩
  | .hbm, ⟨42, _⟩ => ⟨S1600000x1, .i32⟩
  | .hbm, ⟨43, _⟩ => ⟨S50000x64, .f32⟩
  | .hbm, ⟨44, _⟩ => ⟨S_, .f32⟩
  | .hbm, ⟨45, _⟩ => ⟨S1600000, .f32⟩
  | .hbm, ⟨46, _⟩ => ⟨S_, .f32⟩
  | .hbm, ⟨47, _⟩ => ⟨S50000, .f32⟩
  | .hbm, ⟨48, _⟩ => ⟨S1600000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S64 : Shape := ⟨1, ![64]⟩
abbrev S64x64 : Shape := ⟨2, ![64, 64]⟩
abbrev S2x1600000 : Shape := ⟨2, ![2, 1600000]⟩
abbrev S_ : Shape := ⟨0, ![]⟩
abbrev S50000 : Shape := ⟨1, ![50000]⟩
abbrev S50000x1 : Shape := ⟨2, ![50000, 1]⟩
abbrev S1x64 : Shape := ⟨2, ![1, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 78
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S2x1600000, .i32⟩
  | .hbm, ⟨8, _⟩ => ⟨S_, .f32⟩
  | .hbm, ⟨9, _⟩ => ⟨S50000, .f32⟩
  | .hbm, ⟨10, _⟩ => ⟨S50000x1, .f32⟩
  | .hbm, ⟨11, _⟩ => ⟨S_, .f32⟩
  | .hbm, ⟨12, _⟩ => ⟨S50000x1, .f32⟩
  | .hbm, ⟨13, _⟩ => ⟨S50000x1, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S_, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S50000x64, .f32⟩
  | .hbm, ⟨24, _⟩ => ⟨S50000x64, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S50000x1, .f32⟩
  | .hbm, ⟨29, _⟩ => ⟨S50000x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S1x64, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S50000x64, .f32⟩
  | .hbm, ⟨56, _⟩ => ⟨S1600000x1, .i32⟩
  | .hbm, ⟨57, _⟩ => ⟨S50000x64, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S50000, .f32⟩
  | .hbm, ⟨62, _⟩ => ⟨S1600000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x64, .f32⟩
  | .hbm, ⟨69, _⟩ => ⟨S50000x64, .f32⟩
  | .hbm, ⟨70, _⟩ => ⟨S64x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S64x64, .f32⟩
  | .hbm, ⟨76, _⟩ => ⟨S50000x64, .f32⟩
  | .hbm, ⟨77, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  transposes_S64x64_S64x64_1_0 : S64x64.Transposes [1, 0] S64x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The layer's mathematics, stated once over the extended reals, independent of either program.

  For node features `x` ([50000, 64]), a mask of the same shape, per-feature scale `g` and shift `b`:
    mean x r  = (Σ_k x[r,k]) / 64,     var x r = (Σ_k (x[r,k] − mean x r)²) / 64,
    hid  r q  = max ((x[r,q] − mean x r) · rsqrt (var x r + ε) · g q + b q) 0 · mask[r,q]
  (layer normalisation over the feature axis, ReLU, then the mask), with 64 and ε the two f32 words both programs carry.
  A linear map by a [64, 64] weight used transposed is `lin a w r q = Σ_k a[r,k] · w[q,k]`, and the layer's result from an
  aggregated array `agg` and the hidden array `h` is `lin agg wl + bl + lin h wr`, added in that order.
-/
import Idealize.ShloMosaic.PureOps.Ideal
import Idealize.ShloMosaic.Lib.ValueIdx

noncomputable section

open scoped BigOperators

namespace Cert.Spec

open Idealize.ShloMosaic Idealize.ShloMosaic.ValueIdx

/-- Node features: 50000 nodes by 64 features. -/
abbrev SN : Shape := ⟨2, ![50000, 64]⟩
/-- A weight matrix. -/
abbrev SW : Shape := ⟨2, ![64, 64]⟩

/-- The feature count 64 as the f32 word both programs divide by. -/
def c64 : EReal := Ideal.ofBits .f32 0x42800000#32
/-- The variance offset, the f32 word nearest 1e-5, which both programs carry. -/
def eps : EReal := Ideal.ofBits .f32 0x3727C5AC#32

/-- The mean of row `r`. -/
def mean (x : SN.Idx → EReal) (r : Fin 50000) : EReal := Ideal.div (∑ k : Fin 64, x (ix2 r k)) c64

/-- The (biased) variance of row `r`. -/
def var (x : SN.Idx → EReal) (r : Fin 50000) : EReal :=
  Ideal.div (∑ k : Fin 64, (x (ix2 r k) - mean x r) * (x (ix2 r k) - mean x r)) c64

/-- The normalised, scaled, shifted, rectified and masked entry `(r, q)`. -/
def hid (x mask : SN.Idx → EReal) (g b : Fin 64 → EReal) (r : Fin 50000) (q : Fin 64) : EReal :=
  max ((x (ix2 r q) - mean x r) * Ideal.rsqrt (var x r + eps) * g q + b q) 0 * mask (ix2 r q)

/-- The hidden array. -/
def hidA (x mask : SN.Idx → EReal) (g b : Fin 64 → EReal) : SN.Idx → EReal := fun i => hid x mask g b (i 0) (i 1)

/-- Row `r` of `a` against row `q` of `w`: the entry `(r, q)` of `a · wᵀ`. -/
def lin (a : SN.Idx → EReal) (w : SW.Idx → EReal) (r : Fin 50000) (q : Fin 64) : EReal :=
  ∑ k : Fin 64, a (ix2 r k) * w (ix2 q k)

/-- The layer's result: the aggregated features through `wl` with its bias, plus the hidden features through `wr`. -/
def outA (agg h : SN.Idx → EReal) (wl : SW.Idx → EReal) (bl : Fin 64 → EReal) (wr : SW.Idx → EReal) : SN.Idx → EReal :=
  fun i => lin agg wl (i 0) (i 1) + bl (i 1) + lin h wr (i 0) (i 1)

theorem hidA_apply (x mask : SN.Idx → EReal) (g b : Fin 64 → EReal) (r : Fin 50000) (q : Fin 64) :
    hidA x mask g b (ix2 r q) = hid x mask g b r q := rfl

theorem outA_apply (agg h : SN.Idx → EReal) (wl : SW.Idx → EReal) (bl : Fin 64 → EReal) (wr : SW.Idx → EReal)
    (r : Fin 50000) (q : Fin 64) :
    outA agg h wl bl wr (ix2 r q) = lin agg wl r q + bl q + lin h wr r q := rfl

end Cert.Spec

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.LibRow2.lean ====
/-
  Rows of an `[a, b]` array at the ideal values, read at an index, and the unit axis of a `[1, a, b]` block.

  * a maximum-reduction of an `[a, b]` array along its last axis is, at row `r`, the fold of `max` from the accumulator's
    value over the `b` entries of the row; an add-reduction is the sum of the row's entries;
  * a `[1, a, b]` array cast to `[a, b]` reads, at `(p, s)`, the array at `(0, p, s)`, and an `[a, b]` array cast to
    `[1, a, b]` reads, at `(u, p, s)`, the array at `(p, s)`: the row-major positions agree, the unit axis weighing nothing.
-/
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow2

open Idealize.ShloMosaic Idealize.ShloMosaic.ValueIdx

variable {a b : Nat}

/-- The reduced index `r` with the coordinate `k` put back on the last axis is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A maximum-reduction along the last axis, at row `r`: the fold of `max` from the accumulator's value over the row. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_last h r k)
  exact congrArg (fun f => Finset.fold max (Ideal.ofBits φ acc) f (Finset.univ : Finset (Fin b))) hf

/-- An add-reduction along the last axis, at row `r`: the sum of the row. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- The f32 word of −∞ is the bottom of the extended reals. -/
theorem ofBits_neg_inf_f32 : Ideal.ofBits .f32 0xFF800000#32 = (⊥ : EReal) := by
  simp [Ideal.ofBits, Ideal.ieee]

variable {α : Type}

/-- A `[1, a, b]` array cast to `[a, b]` reads, at `(p, s)`, the array at `(0, p, s)`. -/
theorem dropUnit_apply (x : (⟨3, ![1, a, b]⟩ : Shape).Idx → α) (h : (⟨3, ![1, a, b]⟩ : Shape).ShapeCasts ⟨2, ![a, b]⟩)
    (p : Fin a) (s : Fin b) : shapeCast ⟨2, ![a, b]⟩ x h (ix2 p s) = x (ix3 (0 : Fin 1) p s) :=
  shapeCast_apply x h _ _ (by
    rw [Shape.rowMajor_val_three, Shape.rowMajor_val_two]
    show ((0 : ℕ) * a + p.val) * b + s.val = p.val * b + s.val
    rw [Nat.zero_mul, Nat.zero_add])

/-- An `[a, b]` array cast to `[1, a, b]` reads, at `(u, p, s)`, the array at `(p, s)`. -/
theorem addUnit_apply (x : (⟨2, ![a, b]⟩ : Shape).Idx → α) (h : (⟨2, ![a, b]⟩ : Shape).ShapeCasts ⟨3, ![1, a, b]⟩)
    (u : Fin 1) (p : Fin a) (s : Fin b) : shapeCast ⟨3, ![1, a, b]⟩ x h (ix3 u p s) = x (ix2 p s) :=
  shapeCast_apply x h _ _ (by
    have hu : u.val = 0 := by omega
    rw [Shape.rowMajor_val_two, Shape.rowMajor_val_three]
    show p.val * b + s.val = (u.val * a + p.val) * b + s.val
    rw [hu, Nat.zero_mul, Nat.zero_add])

end Cert.LibRow2

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.Region0Value.lean ====
/-
  Region 0 (layer normalisation, ReLU, mask, and the hidden features through W_r), read as values.

  The region walks the 50000 rows in 10 blocks of 5000. At a block, each stored entry depends only on its own row of the
  feature block (the row's mean and variance), on the mask entry, and on the per-feature scale and shift; rows of a block
  are rows of the array, so the first output array is the hidden array `hidA` of the arrays the region finds, and the
  second is that array against the rows of the weight: `lin (hidA …) w`.
-/
import proofs.«412013_j21277267984968_1_alg».proof.Proof.Gen.KernelIdeal.Frame
import proofs.«412013_j21277267984968_1_alg».proof.Proof.Spec
import proofs.«412013_j21277267984968_1_alg».proof.Proof.LibColumn
import proofs.«412013_j21277267984968_1_alg».proof.Proof.LibRow2
import proofs.«412013_j21277267984968_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at one entry of a block -/

/-- The mean of row `p` of a block. -/
private def bmean (x : Vec Ideal S5000x64 .f32) (p : Fin 5000) : EReal := Ideal.div (∑ k : Fin 64, x (ix2 p k)) Cert.Spec.c64

/-- The (biased) variance of row `p` of a block. -/
private def bvar (x : Vec Ideal S5000x64 .f32) (p : Fin 5000) : EReal :=
  Ideal.div (∑ k : Fin 64, (x (ix2 p k) - bmean x p) * (x (ix2 p k) - bmean x p)) Cert.Spec.c64

/-- A block's row sums as a column, read at `(p, u)`: the sum of row `p`. -/
private theorem sumCol_apply (x : FVec Ideal S5000x64 .f32) (p : Fin 5000) (u : Fin 1) :
    shapeCast S5000x1 (multiReduction (F := Ideal) .add [1] S5000 x 0x00000000#32 reduces_S5000x64_S5000 (.inl rfl) rfl) shapeCasts_S5000_S5000x1 (ix2 p u)
      = ∑ k : Fin 64, x (ix2 p k) :=
  (Cert.LibColumn.shapeCast_a_a1_apply _ shapeCasts_S5000_S5000x1 p u).trans
    (Cert.LibRow2.rowSum_apply x 0x00000000#32 reduces_S5000x64_S5000 (.inl rfl) rfl p)

/-- The column of row means: a block's row sums over the feature count. -/
private abbrev meanCol (x : FVec Ideal S5000x64 .f32) : FVec Ideal S5000x1 .f32 :=
  divf (shapeCast S5000x1 (multiReduction (F := Ideal) .add [1] S5000 x 0x00000000#32 reduces_S5000x64_S5000 (.inl rfl) rfl) shapeCasts_S5000_S5000x1)
    (broadcast S5000x1 (Scalar.ofBits (F := Ideal) .f32 0x42800000#32))

/-- The row means laid along the rows. -/
private abbrev meanArr (x : FVec Ideal S5000x64 .f32) : FVec Ideal S5000x64 .f32 :=
  broadcastTo S5000x64 (meanCol x) broadcasts_S5000x1_S5000x64

/-- The reciprocal standard deviations of the rows, laid along the rows. -/
private abbrev rstdArr (x : FVec Ideal S5000x64 .f32) : FVec Ideal S5000x64 .f32 :=
  broadcastTo S5000x64
    (rsqrt (addf (meanCol (mulf (subf x (meanArr x)) (subf x (meanArr x))))
      (broadcast S5000x1 (Scalar.ofBits (F := Ideal) .f32 0x3727C5AC#32))))
    broadcasts_S5000x1_S5000x64

/-- A `[1, 64]` row laid over the 5000 rows. -/
private abbrev rowArr (g : FVec Ideal S1x64 .f32) : FVec Ideal S5000x64 .f32 :=
  broadcastTo S5000x64 (shapeCast S1x64 g shapeCasts_S1x64_S1x64) broadcasts_S1x64_S5000x64

private theorem meanCol_apply (x : FVec Ideal S5000x64 .f32) (p : Fin 5000) (u : Fin 1) :
    meanCol x (ix2 p u) = Ideal.div (∑ k : Fin 64, x (ix2 p k)) Cert.Spec.c64 := by
  show Ideal.div (shapeCast S5000x1 (multiReduction (F := Ideal) .add [1] S5000 x 0x00000000#32 reduces_S5000x64_S5000 (.inl rfl) rfl) shapeCasts_S5000_S5000x1 (ix2 p u)) Cert.Spec.c64 = _
  rw [sumCol_apply]

private theorem meanArr_apply (x : FVec Ideal S5000x64 .f32) (p : Fin 5000) (q : Fin 64) : meanArr x (ix2 p q) = bmean x p :=
  (Cert.LibColumn.broadcastTo_a1_ab_apply _ broadcasts_S5000x1_S5000x64 p q).trans (meanCol_apply x p 0)

private theorem rstdArr_apply (x : FVec Ideal S5000x64 .f32) (p : Fin 5000) (q : Fin 64) :
    rstdArr x (ix2 p q) = Ideal.rsqrt (bvar x p + Cert.Spec.eps) := by
  refine (Cert.LibColumn.broadcastTo_a1_ab_apply _ broadcasts_S5000x1_S5000x64 p q).trans ?_
  show Ideal.rsqrt (meanCol (mulf (subf x (meanArr x)) (subf x (meanArr x))) (ix2 p 0) + Cert.Spec.eps) = _
  rw [meanCol_apply]
  refine congrArg (fun s => Ideal.rsqrt (Ideal.div s Cert.Spec.c64 + Cert.Spec.eps)) (Finset.sum_congr rfl fun k _ => ?_)
  show (x (ix2 p k) - meanArr x (ix2 p k)) * (x (ix2 p k) - meanArr x (ix2 p k)) = _
  rw [meanArr_apply]

private theorem rowArr_apply (g : FVec Ideal S1x64 .f32) (p : Fin 5000) (q : Fin 64) : rowArr g (ix2 p q) = g (ix2 (0 : Fin 1) q) := by
  refine (broadcastTo_1b_ab_apply _ broadcasts_S1x64_S5000x64 p q).trans ?_
  rw [shapeCast_self]

/-- The first payload as the tree of its whole-block operations. -/
private theorem pay1_eq (x : Vec Ideal S5000x64 .f32) (g b : Vec Ideal S1x64 .f32) (mk : Vec Ideal S5000x64 .f32) :
    k0_pay1 (F := Ideal) x g b mk
      = mulf (maximumf (addf (mulf (mulf (subf x (meanArr x)) (rstdArr x)) (rowArr g)) (rowArr b))
          (broadcast S5000x64 (Scalar.ofBits (F := Ideal) .f32 0x00000000#32))) mk := rfl

/-- The first payload at `(p, q)`: row `p` normalised at feature `q`, scaled, shifted, rectified and masked. -/
private theorem pay1_apply (x : Vec Ideal S5000x64 .f32) (g b : Vec Ideal S1x64 .f32) (mk : Vec Ideal S5000x64 .f32) (p : Fin 5000) (q : Fin 64) :
    k0_pay1 (F := Ideal) x g b mk (ix2 p q)
      = max ((x (ix2 p q) - bmean x p) * Ideal.rsqrt (bvar x p + Cert.Spec.eps) * g (ix2 (0 : Fin 1) q) + b (ix2 (0 : Fin 1) q)) 0 * mk (ix2 p q) := by
  rw [pay1_eq]
  show max ((x (ix2 p q) - meanArr x (ix2 p q)) * rstdArr x (ix2 p q) * rowArr g (ix2 p q) + rowArr b (ix2 p q)) (Ideal.ofBits .f32 0x00000000#32) * mk (ix2 p q) = _
  rw [meanArr_apply, rstdArr_apply, rowArr_apply, rowArr_apply, Ideal.ofBits_zero_f32]

/-- The second payload at `(p, q)`: row `p` of the first payload against row `q` of the weight block. -/
private theorem pay2_apply (x : Vec Ideal S5000x64 .f32) (g b : Vec Ideal S1x64 .f32) (mk : Vec Ideal S5000x64 .f32) (w : Vec Ideal S64x64 .f32)
    (p : Fin 5000) (q : Fin 64) :
    k0_pay2 (F := Ideal) x g b mk w (ix2 p q) = ∑ k : Fin 64, k0_pay1 (F := Ideal) x g b mk (ix2 p k) * w (ix2 q k) := by
  unfold k0_pay2
  refine (Cert.LibDot.matmul_plain_apply dot_S5000x64_S64x64_S5000x64_1_0_0_1_n_n rfl rfl rfl rfl rfl rfl none _ _ p q).trans ?_
  refine Finset.sum_congr rfl fun k _ => ?_
  refine congrArg (fun s => k0_pay1 (F := Ideal) x g b mk (ix2 p k) * s) ?_
  refine (transpose_apply [1, 0] _ transposes_S64x64_p1_0_S64x64 (ix2 k q) (ix2 q k) fun a => ?_).trans rfl
  match a with
  | ⟨0, _⟩ => rfl
  | ⟨1, _⟩ => rfl

/-! ## A block of the region as rows of the arrays -/

/-- The two-coordinate zero offset is the constant zero. -/
private theorem hz : (![0, 0] : Fin 2 → Nat) = fun _ => 0 := funext fun a => by fin_cases a <;> rfl

/-- What the body computes on a block whose rows are the rows `ρ p` of the arrays is the hidden array on those rows. -/
private theorem block_hid (X M : Cert.Spec.SN.Idx → EReal) (G B : Fin 64 → EReal)
    (x mk : Vec Ideal S5000x64 .f32) (g b : Vec Ideal S1x64 .f32) (ρ : Fin 5000 → Fin 50000)
    (hx : ∀ p q, x (ix2 p q) = X (ix2 (ρ p) q)) (hm : ∀ p q, mk (ix2 p q) = M (ix2 (ρ p) q))
    (hg : ∀ q, g (ix2 (0 : Fin 1) q) = G q) (hb : ∀ q, b (ix2 (0 : Fin 1) q) = B q) (p : Fin 5000) (q : Fin 64) :
    k0_pay1 (F := Ideal) x g b mk (ix2 p q) = Cert.Spec.hidA X M G B (ix2 (ρ p) q) := by
  have hmean : bmean x p = Cert.Spec.mean X (ρ p) := by
    unfold bmean Cert.Spec.mean
    exact congrArg (fun s => Ideal.div s Cert.Spec.c64) (Finset.sum_congr rfl fun k _ => hx p k)
  have hvar : bvar x p = Cert.Spec.var X (ρ p) := by
    unfold bvar Cert.Spec.var
    rw [hmean]
    exact congrArg (fun s => Ideal.div s Cert.Spec.c64) (Finset.sum_congr rfl fun k _ => by rw [hx p k])
  rw [pay1_apply, Cert.Spec.hidA_apply, hmean, hvar, hx, hm, hg, hb]
  rfl

/-- And the second payload on such a block is those rows of the hidden array against the rows of the weight. -/
private theorem block_lin (X M : Cert.Spec.SN.Idx → EReal) (G B : Fin 64 → EReal) (W : Cert.Spec.SW.Idx → EReal)
    (x mk : Vec Ideal S5000x64 .f32) (g b : Vec Ideal S1x64 .f32) (w : Vec Ideal S64x64 .f32) (ρ : Fin 5000 → Fin 50000)
    (hx : ∀ p q, x (ix2 p q) = X (ix2 (ρ p) q)) (hm : ∀ p q, mk (ix2 p q) = M (ix2 (ρ p) q))
    (hg : ∀ q, g (ix2 (0 : Fin 1) q) = G q) (hb : ∀ q, b (ix2 (0 : Fin 1) q) = B q)
    (hw : ∀ a k, w (ix2 a k) = W (ix2 a k)) (p : Fin 5000) (q : Fin 64) :
    k0_pay2 (F := Ideal) x g b mk w (ix2 p q) = Cert.Spec.lin (Cert.Spec.hidA X M G B) W (ρ p) q := by
  rw [pay2_apply]
  unfold Cert.Spec.lin
  exact Finset.sum_congr rfl fun k _ => by rw [block_hid X M G B x mk g b ρ hx hm hg hb p k, hw]

/-- The printed index maps, decided over the grid: the row windows sit at block `(t, 0)`, the three small ones at `(0, 0)`. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A point of the grid is below 10. -/
private theorem point_lt (t : Fin cfg0.N) : t.val < 10 := by
  exact Nat.lt_of_lt_of_eq t.isLt N_0

/-- Row `p` of the block at point `t` is row `5000 t + p` of the array. -/
private def rowOf (t : Fin cfg0.N) (p : Fin 5000) : Fin 50000 := ⟨t.val * 5000 + p.val, by have := point_lt t; have := p.isLt; omega⟩

/-- The feature block at point `t`, entry by entry. -/
private theorem xblk_apply (c : Dev nD) (t : Fin cfg0.N) (p : Fin 5000) (q : Fin 64) :
    (iblk0 V c 0 t : Vec Ideal S5000x64 .f32) (ix2 p q) = (V c main_arg0 : S50000x64.Idx → EReal) (ix2 (rowOf t p) q) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = t.val * 5000 + p.val; rw [e0, Nat.one_mul]
  | ⟨1, _⟩ => show win0_0.index t (1 : Fin 2) * 64 + 1 * q.val = q.val; rw [e1, Nat.zero_mul, Nat.zero_add, Nat.one_mul]

/-- The mask block at point `t`, entry by entry. -/
private theorem mblk_apply (c : Dev nD) (t : Fin cfg0.N) (p : Fin 5000) (q : Fin 64) :
    (iblk0 V c 1 t : Vec Ideal S5000x64 .f32) (ix2 p q) = (V c main_arg1 : S50000x64.Idx → EReal) (ix2 (rowOf t p) q) := by
  obtain ⟨-, -, e0, e1, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 5000 + 1 * p.val = t.val * 5000 + p.val; rw [e0, Nat.one_mul]
  | ⟨1, _⟩ => show win0_1.index t (1 : Fin 2) * 64 + 1 * q.val = q.val; rw [e1, Nat.zero_mul, Nat.zero_add, Nat.one_mul]

/-- The scale row's block is the row, at every point. -/
private theorem gblk_apply (c : Dev nD) (t : Fin cfg0.N) (q : Fin 64) :
    (iblk0 V c 2 t : Vec Ideal S1x64 .f32) (ix2 (0 : Fin 1) q) = (V c main_v0 : S1x64.Idx → EReal) (ix2 (0 : Fin 1) q) := by
  obtain ⟨-, -, -, -, e0, e1, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1, Nat.zero_mul, Nat.zero_add, Nat.one_mul]

/-- The shift row's block is the row, at every point. -/
private theorem bblk_apply (c : Dev nD) (t : Fin cfg0.N) (q : Fin 64) :
    (iblk0 V c 3 t : Vec Ideal S1x64 .f32) (ix2 (0 : Fin 1) q) = (V c main_v1 : S1x64.Idx → EReal) (ix2 (0 : Fin 1) q) := by
  obtain ⟨-, -, -, -, -, -, e0, e1, -⟩ := idx_facts t
  unfold iblk0
  rw [View.read_apply]
  show V c main_v1 _ = V c main_v1 _
  refine congrArg (V c main_v1) (funext fun a => Fin.ext ?_)
  match a with
  | ⟨0, _⟩ => show win0_3.index t (0 : Fin 2) * 1 + 1 * 0 = 0; rw [e0]
  | ⟨1, _⟩ => show win0_3.index t (1 : Fin 2) * 64 + 1 * q.val = q.val; rw [e1, Nat.zero_mul, Nat.zero_add, Nat.one_mul]

/-- The weight's block is the weight, at every point. -/
private theorem wblk_apply (c : Dev nD) (t : Fin cfg0.N) (a k : Fin 64) :
    (iblk0 V c 4 t : Vec Ideal S64x64 .f32) (ix2 a k) = (V c main_arg6 : S64x64.Idx → EReal) (ix2 a k) := by
  obtain ⟨-, -, -, -, -, -, -, -, e0, e1, -⟩ := idx_facts t
  unfold iblk0
  rw [View.read_apply]
  show V c main_arg6 _ = V c main_arg6 _
  refine congrArg (V c main_arg6) (funext fun d => Fin.ext ?_)
  match d with
  | ⟨0, _⟩ => show win0_4.index t (0 : Fin 2) * 64 + 1 * a.val = a.val; rw [e0, Nat.zero_mul, Nat.zero_add, Nat.one_mul]
  | ⟨1, _⟩ => show win0_4.index t (1 : Fin 2) * 64 + 1 * k.val = k.val; rw [e1, Nat.zero_mul, Nat.zero_add, Nat.one_mul]

/-! ## What a point writes back, and the arrays after the region -/

/-- The hidden array of the arrays the region finds. -/
private abbrev hidOf (c : Dev nD) : Cert.Spec.SN.Idx → EReal :=
  Cert.Spec.hidA (V c main_arg0) (V c main_arg1) (fun q => V c main_v0 (ix2 (0 : Fin 1) q)) (fun q => V c main_v1 (ix2 (0 : Fin 1) q))

/-- The first payload of the blocks at point `t` is rows `5000 t …` of the hidden array. -/
private theorem pay1_blocks (c : Dev nD) (t : Fin cfg0.N) (p : Fin 5000) (q : Fin 64) :
    k0_pay1 (F := Ideal) (iblk0 V c 0 t) (iblk0 V c 2 t) (iblk0 V c 3 t) (iblk0 V c 1 t) (ix2 p q) = hidOf V c (ix2 (rowOf t p) q) :=
  block_hid (V c main_arg0) (V c main_arg1) (fun q => V c main_v0 (ix2 (0 : Fin 1) q)) (fun q => V c main_v1 (ix2 (0 : Fin 1) q))
    (iblk0 V c 0 t) (iblk0 V c 1 t) (iblk0 V c 2 t) (iblk0 V c 3 t) (rowOf t)
    (xblk_apply V c t) (mblk_apply V c t) (gblk_apply V c t) (bblk_apply V c t) p q

/-- What point `t` writes back through window 5 is block `t` of the hidden array. -/
private theorem flushed5_eq (c : Dev nD) (t : Fin cfg0.N) :
    (dat0 (F := Ideal) V c).flushed 5 t = ((cfg0.win 5).blk t).view.read (Elt Ideal) (hidOf V c) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S1x64) hz]
  obtain ⟨-, -, -, -, -, -, -, -, -, -, e0, e1, -⟩ := idx_facts t
  show (k0_pay1 (F := Ideal) (iblk0 V c 0 t) (iblk0 V c 2 t) (iblk0 V c 3 t) (iblk0 V c 1 t) : S5000x64.Idx → EReal)
    = fun j : S5000x64.Idx => hidOf V c (((cfg0.win 5).blk t).view.emb j)
  funext j
  obtain ⟨p, q, rfl⟩ : ∃ (p : Fin 5000) (q : Fin 64), j = ix2 p q := ⟨j 0, j 1, eq_ix2 j⟩
  rw [pay1_blocks]
  refine congrArg (hidOf V c) (funext fun a => Fin.ext ?_)
  match a with
  | ⟨0, _⟩ => show t.val * 5000 + p.val = win0_5.index t (0 : Fin 2) * 5000 + 1 * p.val; rw [e0, Nat.one_mul]
  | ⟨1, _⟩ => show q.val = win0_5.index t (1 : Fin 2) * 64 + 1 * q.val; rw [e1, Nat.zero_mul, Nat.zero_add, Nat.one_mul]

/-- An index of the array is in point `t`'s block of window 5 iff each coordinate is in the block's range on its axis. -/
private theorem mem_blk5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v3_0).slice (win0_5.rect t)).set ↔ _
  rw [View.set_slice_whole, Rect.mem_set_unit]
  exact Iff.rfl

/-- Row `r` lies in the block of point `r / 5000`: the blocks of window 5 cover the array. -/
private theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega) N_0.symm⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- The hidden array as region 0 leaves it, from the arrays the region finds. -/
theorem arr_hidden (c : Dev nD) :
    (dat0 (F := Ideal) V c).arrAt 5 cfg0.N
      = Cert.Spec.hidA (V c main_arg0) (V c main_arg1) (fun q => V c main_v0 (ix2 (0 : Fin 1) q)) (fun q => V c main_v1 (ix2 (0 : Fin 1) q)) :=
  (dat0 (F := Ideal) V c).arrAt_eq_of_cover 5 (hidOf V c) (fun t _ => flushed5_eq V c t) cover5

/-- The hidden array of the arrays the region finds, against the rows of the weight it finds. -/
private abbrev linOf (c : Dev nD) : Cert.Spec.SN.Idx → EReal :=
  fun i => Cert.Spec.lin (hidOf V c) (V c main_arg6) (i 0) (i 1)

/-- The second payload of the blocks at point `t` is rows `5000 t …` of the hidden array against the weight's rows. -/
private theorem pay2_blocks (c : Dev nD) (t : Fin cfg0.N) (p : Fin 5000) (q : Fin 64) :
    k0_pay2 (F := Ideal) (iblk0 V c 0 t) (iblk0 V c 2 t) (iblk0 V c 3 t) (iblk0 V c 1 t) (iblk0 V c 4 t) (ix2 p q)
      = linOf V c (ix2 (rowOf t p) q) :=
  block_lin (V c main_arg0) (V c main_arg1) (fun q => V c main_v0 (ix2 (0 : Fin 1) q)) (fun q => V c main_v1 (ix2 (0 : Fin 1) q)) (V c main_arg6)
    (iblk0 V c 0 t) (iblk0 V c 1 t) (iblk0 V c 2 t) (iblk0 V c 3 t) (iblk0 V c 4 t) (rowOf t)
    (xblk_apply V c t) (mblk_apply V c t) (gblk_apply V c t) (bblk_apply V c t) (wblk_apply V c t) p q

/-- What point `t` writes back through window 6 is block `t` of that array. -/
private theorem flushed6_eq (c : Dev nD) (t : Fin cfg0.N) :
    (dat0 (F := Ideal) V c).flushed 6 t = ((cfg0.win 6).blk t).view.read (Elt Ideal) (linOf V c) := by
  show (cfg0.win 6).cut (grid0.coords t) ((dat0 (F := Ideal) V c).after 6 t) = _
  rw [after0_6]
  unfold out0_6
  rw [View.canon_unit_zero hz]
  simp only [View.ld_unit_zero (S := S5000x64) hz, View.ld_unit_zero (S := S1x64) hz, View.ld_unit_zero (S := S64x64) hz]
  obtain ⟨-, -, -, -, -, -, -, -, -, -, -, -, e0, e1⟩ := idx_facts t
  show (k0_pay2 (F := Ideal) (iblk0 V c 0 t) (iblk0 V c 2 t) (iblk0 V c 3 t) (iblk0 V c 1 t) (iblk0 V c 4 t) : S5000x64.Idx → EReal)
    = fun j : S5000x64.Idx => linOf V c (((cfg0.win 6).blk t).view.emb j)
  funext j
  obtain ⟨p, q, rfl⟩ : ∃ (p : Fin 5000) (q : Fin 64), j = ix2 p q := ⟨j 0, j 1, eq_ix2 j⟩
  rw [pay2_blocks]
  refine congrArg (linOf V c) (funext fun a => Fin.ext ?_)
  match a with
  | ⟨0, _⟩ => show t.val * 5000 + p.val = win0_6.index t (0 : Fin 2) * 5000 + 1 * p.val; rw [e0, Nat.one_mul]
  | ⟨1, _⟩ => show q.val = win0_6.index t (1 : Fin 2) * 64 + 1 * q.val; rw [e1, Nat.zero_mul, Nat.zero_add, Nat.one_mul]

/-- An index of the array is in point `t`'s block of window 6 iff each coordinate is in the block's range on its axis. -/
private theorem mem_blk6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v3_1).slice (win0_6.rect t)).set ↔ _
  rw [View.set_slice_whole, Rect.mem_set_unit]
  exact Iff.rfl

/-- The blocks of window 6 cover the array in the same way. -/
private theorem cover6 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega) N_0.symm⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-- The hidden features through the second weight, as region 0 leaves them. -/
theorem arr_partial (c : Dev nD) :
    (dat0 (F := Ideal) V c).arrAt 6 cfg0.N
      = fun i => Cert.Spec.lin (Cert.Spec.hidA (V c main_arg0) (V c main_arg1) (fun q => V c main_v0 (ix2 (0 : Fin 1) q)) (fun q => V c main_v1 (ix2 (0 : Fin 1) q)))
          (V c main_arg6) (i 0) (i 1) :=
  (dat0 (F := Ideal) V c).arrAt_eq_of_cover 6 (linOf V c) (fun t _ => flushed6_eq V c t) cover6

end Cert.KernelIdeal.Region0

end
-- ==== Proof.Region1Value.lean ====
/-
  Region 1 (the aggregated features through W_l, its bias, and the partial result of region 0), read as values.

  The region walks the 50000 rows in 10 blocks of 5000; an entry of a block's result is the row of the aggregated block
  against a row of the weight, plus the bias entry, plus the partial result's entry — in that order. Rows of a block are
  rows of the array, so the output array is that expression of the arrays the region finds, index by index.
-/
import proofs.«412013_j21277267984968_1_alg».proof.Proof.Gen.KernelIdeal.Frame
import proofs.«412013_j21277267984968_1_alg».proof.Proof.Spec
import proofs.«412013_j21277267984968_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## A block's result at an entry -/

/-- The block's result at row `p`, column `q`, over any four blocks: row `p` of the first against row `q` of the
    weight (the product contracts the first block's columns with the transposed weight's rows; the rounding to bf16 and
    the casts to the same shape change nothing at the extended reals), plus the bias row's entry `q` (the one row
    repeated down the block), plus the last block's entry. -/
private theorem block_result_apply (a : Vec Ideal S5000x64 .f32) (w : Vec Ideal S64x64 .f32) (b : Vec Ideal S1x64 .f32)
    (po : Vec Ideal S5000x64 .f32) (p : Fin 5000) (q : Fin 64) :
    k1_pay1 (F := Ideal) a w b po (ix2 p q)
      = (∑ k : Fin 64, a (ix2 p k) * w (ix2 q k)) + b (ix2 (0 : Fin 1) q) + po (ix2 p q) := by
  unfold k1_pay1
  dsimp only
  refine (addf_apply _ _ _).trans ?_
  refine congrArg₂ (· + ·) ((addf_apply _ _ _).trans (congrArg₂ (· + ·) ?_ ?_)) ?_
  · refine (Cert.LibDot.matmul_plain_apply (M := 5000) (K := 64) (N := 64) dot_S5000x64_S64x64_S5000x64_1_0_0_1_n_n
      rfl rfl rfl rfl rfl rfl none _ _ p q).trans ?_
    refine Finset.sum_congr rfl fun k _ => ?_
    refine congrArg₂ (· * ·) ?_ ?_
    · exact congrFun (shapeCast_self a shapeCasts_S5000x64_S5000x64) (ix2 p k)
    · exact transpose_ix2_apply (a := 64) (b := 64) _ transposes_S64x64_p1_0_S64x64 k q
  · exact (broadcastTo_1b_ab_apply (a := 5000) (b := 64) _ broadcasts_S1x64_S5000x64 p q).trans
      (congrFun (shapeCast_self b shapeCasts_S1x64_S1x64) (ix2 (0 : Fin 1) q))
  · exact congrFun (shapeCast_self po shapeCasts_S5000x64_S5000x64) (ix2 p q)

variable (V : (c : Dev nD) → (b : Ref sig .tc) → Buf (Elt Ideal) ((c : Thread nD τ).loc b))

/-! ## The arrays and the blocks, at their literal types -/

/-- The aggregated array, the partial result, the weight and the bias row as the region finds them. -/
private abbrev aggArr (c : Dev nD) : S50000x64.Idx → EReal := V c main_v20
private abbrev partArr (c : Dev nD) : S50000x64.Idx → EReal := V c main_v3_1
private abbrev wArr (c : Dev nD) : S64x64.Idx → EReal := V c main_arg4
private abbrev biasArr (c : Dev nD) : S1x64.Idx → EReal := V c main_v2

/-- Their blocks at point `t`. -/
private abbrev aggBlk (c : Dev nD) (t : Fin cfg1.N) : Vec Ideal S5000x64 .f32 := iblk1 V c 0 t
private abbrev partBlk (c : Dev nD) (t : Fin cfg1.N) : Vec Ideal S5000x64 .f32 := iblk1 V c 1 t
private abbrev wBlk (c : Dev nD) (t : Fin cfg1.N) : Vec Ideal S64x64 .f32 := iblk1 V c 2 t
private abbrev biasBlk (c : Dev nD) (t : Fin cfg1.N) : Vec Ideal S1x64 .f32 := iblk1 V c 3 t

/-- The result array's entry, from the four arrays. -/
private abbrev resultOf (a : S50000x64.Idx → EReal) (w : S64x64.Idx → EReal) (b : S1x64.Idx → EReal) (po : S50000x64.Idx → EReal) :
    S50000x64.Idx → EReal :=
  fun i => Cert.Spec.lin a w (i 0) (i 1) + b (ix2 (0 : Fin 1) (i 1)) + po i

/-! ## Where the blocks lie -/

private theorem zero_offsets : (![0, 0] : Fin 2 → Nat) = fun _ => 0 := funext fun a => by fin_cases a <;> rfl

/-- The block indices at point `t`: the aggregated array's, the partial result's and the output's blocks are the
    `t`-th along the rows; the weight's and the bias row's are always the first. -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is row `5000 t + p` of the array. -/
private def rowOf (t : Fin cfg1.N) (p : Fin 5000) : Fin 50000 :=
  ⟨5000 * t.val + p.val, by have ht : t.val < 10 := lt_of_lt_of_eq t.isLt N_1; have := p.isLt; omega⟩

private theorem aggBlk_apply (c : Dev nD) (t : Fin cfg1.N) (p : Fin 5000) (k : Fin 64) :
    aggBlk V c t (ix2 p k) = aggArr V c (ix2 (rowOf t p) k) := by
  obtain ⟨e0, e1, -⟩ := block_indices t
  show aggArr V c (((cfg1.win 0).blk t).view.emb (ix2 p k)) = aggArr V c (ix2 (rowOf t p) k)
  refine congrArg (aggArr V c) (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * k.val = k.val; omega

private theorem partBlk_apply (c : Dev nD) (t : Fin cfg1.N) (p : Fin 5000) (q : Fin 64) :
    partBlk V c t (ix2 p q) = partArr V c (ix2 (rowOf t p) q) := by
  obtain ⟨-, -, e0, e1, -⟩ := block_indices t
  show partArr V c (((cfg1.win 1).blk t).view.emb (ix2 p q)) = partArr V c (ix2 (rowOf t p) q)
  refine congrArg (partArr V c) (funext fun a => Fin.ext ?_)
  match a with
  | ⟨0, _⟩ => show win1_1.index t (0 : Fin 2) * 5000 + 1 * p.val = 5000 * t.val + p.val; omega
  | ⟨1, _⟩ => show win1_1.index t (1 : Fin 2) * 64 + 1 * q.val = q.val; omega

private theorem wBlk_apply (c : Dev nD) (t : Fin cfg1.N) (q k : Fin 64) :
    wBlk V c t (ix2 q k) = wArr V c (ix2 q k) := by
  obtain ⟨-, -, -, -, e0, e1, -⟩ := block_indices t
  show wArr V c (((cfg1.win 2).blk t).view.emb (ix2 q k)) = wArr V c (ix2 q k)
  refine congrArg (wArr V c) (funext fun a => Fin.ext ?_)
  match a with
  | ⟨0, _⟩ => show win1_2.index t (0 : Fin 2) * 64 + 1 * q.val = q.val; omega
  | ⟨1, _⟩ => show win1_2.index t (1 : Fin 2) * 64 + 1 * k.val = k.val; omega

private theorem biasBlk_apply (c : Dev nD) (t : Fin cfg1.N) (q : Fin 64) :
    biasBlk V c t (ix2 (0 : Fin 1) q) = biasArr V c (ix2 (0 : Fin 1) q) := by
  obtain ⟨-, -, -, -, -, -, e0, e1, -⟩ := block_indices t
  show biasArr V c (((cfg1.win 3).blk t).view.emb (ix2 (0 : Fin 1) q)) = biasArr V c (ix2 (0 : Fin 1) q)
  refine congrArg (biasArr V c) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 64 + 1 * q.val = q.val; omega

/-- Entry `(p, q)` of the output's block at point `t` is entry `(5000 t + p, q)` of the output array. -/
private theorem outBlk_emb (t : Fin cfg1.N) (p : Fin 5000) (q : Fin 64) :
    (((cfg1.win 4).blk t).view.emb (ix2 p q) : S50000x64.Idx) = ix2 (rowOf t p) q := by
  obtain ⟨-, -, -, -, -, -, -, -, e0, e1⟩ := block_indices t
  refine funext fun a => Fin.ext ?_
  match a with
  | ⟨0, _⟩ => show win1_4.index t (0 : Fin 2) * 5000 + 1 * p.val = 5000 * t.val + p.val; omega
  | ⟨1, _⟩ => show win1_4.index t (1 : Fin 2) * 64 + 1 * q.val = q.val; omega

/-! ## What a point writes back -/

/-- The block's result at `(p, q)` from the blocks at point `t` is the result array's entry `(5000 t + p, q)` from the arrays. -/
private theorem point_result (c : Dev nD) (t : Fin cfg1.N) (p : Fin 5000) (q : Fin 64) :
    k1_pay1 (F := Ideal) (aggBlk V c t) (wBlk V c t) (biasBlk V c t) (partBlk V c t) (ix2 p q)
      = resultOf (aggArr V c) (wArr V c) (biasArr V c) (partArr V c) (ix2 (rowOf t p) q) :=
  (block_result_apply _ _ _ _ p q).trans
    (congrArg₂ (· + ·)
      (congrArg₂ (· + ·)
        (Finset.sum_congr rfl fun k _ => congrArg₂ (· * ·) (aggBlk_apply V c t p k) (wBlk_apply V c t q k))
        (biasBlk_apply V c t q))
      (partBlk_apply V c t p q))

/-- What point `t` writes back is block `t` of the result array. -/
private theorem flushed_eq (c : Dev nD) (t : Fin cfg1.N) :
    (dat1 (F := Ideal) V c).flushed 4 t
      = ((cfg1.win 4).blk t).view.read (Elt Ideal) (resultOf (aggArr V c) (wArr V c) (biasArr V c) (partArr V c)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  show k1_pay1 (F := Ideal) (aggBlk V c t) (wBlk V c t) (biasBlk V c t) (partBlk V c t) (ix2 p q)
    = resultOf (aggArr V c) (wArr V c) (biasArr V c) (partArr V c) (((cfg1.win 4).blk t).view.emb (ix2 p q))
  rw [outBlk_emb t p q]
  exact point_result V c t p q

/-! ## The blocks cover the array -/

/-- An index of the array is in point `t`'s block iff each coordinate is in the block's range on its axis. -/
private theorem mem_outBlk (t : Fin cfg1.N) (i : S50000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v21).slice (win1_4.rect t)).set ↔ _
  rw [View.set_slice_whole, Rect.mem_set_unit]
  exact Iff.rfl

/-- Row `r` lies in the block of point `r / 5000`, which is written back. -/
private theorem covered (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  have hlt : (i 0).val / 5000 < cfg1.N := lt_of_lt_of_eq (by omega) N_1.symm
  obtain ⟨-, -, -, -, -, -, -, -, e0, e1⟩ := block_indices ⟨(i 0).val / 5000, hlt⟩
  have e0' : win1_4.index ⟨(i 0).val / 5000, hlt⟩ (0 : Fin 2) = (i 0).val / 5000 := e0
  refine ⟨⟨(i 0).val / 5000, hlt⟩, flush1_4 _, ?_⟩
  rw [mem_outBlk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    omega

/-! ## The array -/

/-- The result array as region 1 leaves it, from the arrays the region finds. -/
theorem arr_out (c : Dev nD) :
    (dat1 (F := Ideal) V c).arrAt 4 cfg1.N
      = fun i => Cert.Spec.lin (V c main_v20) (V c main_arg4) (i 0) (i 1) + V c main_v2 (ix2 (0 : Fin 1) (i 1)) + V c main_v3_1 i :=
  (dat1 (F := Ideal) V c).arrAt_eq_of_cover 4 (resultOf (aggArr V c) (wArr V c) (biasArr V c) (partArr V c))
    (fun t _ => flushed_eq V c t) covered

end Cert.KernelIdeal.Region1

end
-- ==== Proof.RefAgg.lean ====
/-
  The mean aggregation over edges, as the reference computes it from the hidden array on: gather the source node's row
  for every edge, add each edge's row into its destination node's row, count the edges per destination, and divide
  each row by its count (at least 1). Stated as ONE function of the hidden array and the edge list, built from the
  reference's own operations, so that both programs' aggregated arrays can be named by it.
-/
import proofs.«412013_j21277267984968_1_alg».proof.Proof.Gen.ReferenceIdeal.Read

noncomputable section

namespace Cert.ReferenceIdeal.Hand

open Cert.ReferenceIdeal Cert.ReferenceIdeal.Gen Cert.ReferenceIdeal.Read Idealize.ShloMosaic Idealize.ShloMosaic.TcCoe Idealize.ShloMosaic.StableHlo

variable {F : FTy → Type} [FloatOps F]

/-- Each node's mean over its incoming edges of the source rows of `h` (0 for a node with no incoming edge). -/
def aggR (h : (⟨S50000x64, .f32⟩ : BufTy).Contents (Elt F)) (x7 : (⟨S2x1600000, .i32⟩ : BufTy).Contents (Elt F)) :
    (⟨S50000x64, .f32⟩ : BufTy).Contents (Elt F) :=
  Host.divf
    (Host.scatterAdd scatter_S50000x64_S1600000x1_S1600000x64_1_0_0_1 (val_main_v37 (F := F)) (val_main_v38 (F := F) x7)
      (Host.gather gather_S50000x64_S1600000x1_S1600000x64_1_0_n_n_0_1_164 h (val_main_v35 (F := F) x7)))
    (val_main_v47 (F := F) x7)

/-- The reference's aggregated array is that function of its hidden array. -/
theorem val_main_v48_eq (x0 x1 : (⟨S50000x64, .f32⟩ : BufTy).Contents (Elt F)) (x2 x3 : (⟨S64, .f32⟩ : BufTy).Contents (Elt F))
    (x7 : (⟨S2x1600000, .i32⟩ : BufTy).Contents (Elt F)) :
    val_main_v48 (F := F) x0 x1 x2 x3 x7 = aggR (val_main_v25 (F := F) x0 x1 x2 x3) x7 := rfl

end Cert.ReferenceIdeal.Hand

end
-- ==== Proof.SrcRange.lean ====
/-
  The source-node words of the edge list, and the range they index.

  The edge list is a [2, 1600000] array of 32-bit words; its row 0, taken out as a length-1600000 vector, holds each
  edge's source node. `SrcOk` says every source word, read signed, is a node id: at least 0 and below 50000.
-/
import Idealize.ShloMosaic.PureOps
import Idealize.ShloMosaic.Lib.ValueIdx

noncomputable section

namespace Cert.Spec

open Idealize.ShloMosaic

/-- Row 0 of the edge list as a vector: the slice [0:1, 0:1600000] flattened. -/
def srcOf (ei : (⟨2, ![2, 1600000]⟩ : Shape).Idx → BitVec 32) : (⟨1, ![1600000]⟩ : Shape).Idx → BitVec 32 :=
  shapeCast ⟨1, ![1600000]⟩ (extractStridedSlice ⟨2, ![1, 1600000]⟩ ![0, 0] ei (by decide)) (by decide)

/-- Every source word is a node id: `0 ≤ src < 50000`, signed. -/
def SrcOk (ei : (⟨2, ![2, 1600000]⟩ : Shape).Idx → BitVec 32) : Prop :=
  ∀ j, IntOp.cmpi .sge (srcOf ei j) 0#32 = 1#1 ∧ IntOp.cmpi .slt (srcOf ei j) 50000#32 = 1#1

end Cert.Spec

end
-- ==== Proof.LibTRef.lean ====
/-
  A typed reference's two transports are inverse to each other.

  A module-local function's host operations read and write their buffers through a typed reference, which carries
  contents between the value's type and the buffer's along the equation of the two. Whatever that equation's proof,
  transporting there and back is the identity (`ofBuf_toBuf`, `toBuf_ofBuf`): a composed term of such operations
  reads as the plain composition of their functions.
-/
import Idealize.ShloMosaic.Lib.StableHlo

noncomputable section

namespace Cert.LibTRef

open Idealize.ShloMosaic Idealize.ShloMosaic.StableHlo

variable {sig : RefSig} {T : BufTy} {Val : EltTy → Type}

/-- Contents carried to the buffer's type and back are the contents. -/
theorem ofBuf_toBuf (x : TRef sig T) (v : T.Contents Val) : x.ofBuf (x.toBuf v) = v := by
  obtain ⟨r, rfl, h2, h3⟩ := x
  rfl

/-- Contents carried to the value's type and back are the contents. -/
theorem toBuf_ofBuf (x : TRef sig T) (u : x.ref.ty.Contents Val) : x.toBuf (x.ofBuf u) = u := by
  obtain ⟨r, rfl, h2, h3⟩ := x
  rfl

end Cert.LibTRef

end
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.HostMid.lean ====
/-
  The host operations around the two regions, read as values.

  Before region 0 the three parameter vectors are reshaped to [1, 64]; the argument arrays are untouched. Between the
  regions the program takes the source and destination rows out of the edge list, gathers the hidden array's rows at the
  sources (a take that would fill rows at out-of-range sources with a not-a-number word), adds them into their
  destination rows, counts edges per destination and divides. When every source word is a node id the fill never
  happens, and the aggregated array region 1 finds is the reference's mean aggregation `aggR` of the hidden array
  region 0 left; the partial result, the first weight and the bias reach region 1 unchanged (the bias reshaped).
-/
import proofs.«412013_j21277267984968_1_alg».proof.Proof.Gen.KernelIdeal.Frame
import proofs.«412013_j21277267984968_1_alg».proof.Proof.RefAgg
import proofs.«412013_j21277267984968_1_alg».proof.Proof.SrcRange
import proofs.«412013_j21277267984968_1_alg».proof.Proof.LibTRef
import proofs.«412013_j21277267984968_1_alg».proof.Proof.LibAllOnes
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostMid

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (ρ : Dev nD → PrngReg)

/-! ## Buffers a stretch of host operations leaves alone

A stretch of host operations changes only the buffers its operations write. For each stretch, a reference that is none
of its result references keeps its contents through the whole stretch. -/

/-- The tactic for "no operation of this literal stretch writes this literal reference": one inequality of references
    per operation, each decided. -/
local macro "no_write " l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The reshape of a length-64 vector to a [1, 64] row reads, at (0, q), the vector at q. -/
private theorem row_of_vec (x : (⟨S64, .f32⟩ : BufTy).Contents (Elt Ideal)) (q : Fin 64) :
    shapeCast S1x64 x shapeCasts_S64_S1x64 (ix2 (0 : Fin 1) q) = x (ix1 q) :=
  shapeCast_a_1a_apply x shapeCasts_S64_S1x64 0 q

/-! ## The aggregation between the regions, as one function of the hidden array and the edge list

The take of the hidden array's rows at the source words tests every (wrapped) source word against the row range and
fills the rows that fail with a not-a-number word. With every source word a node id no row fails: the wrapped word is
the word, it lies in the range, the and-reduction of the two tests is 1 at every edge, and the take is the plain gather. -/

/-- A 32-bit word that is, signed, at least 0 and below 50000 is not below 0 and is at most 49999. -/
private theorem word_in_range (w : BitVec 32) (h0 : IntOp.cmpi .sge w 0#32 = 1#1) (h1 : IntOp.cmpi .slt w 50000#32 = 1#1) :
    IntOp.cmpi .slt w 0#32 = 0#1 ∧ IntOp.cmpi .sle w 49999#32 = 1#1 := by
  have e0 : (0#32 : BitVec 32).toInt = 0 := by decide
  have e1 : (50000#32 : BitVec 32).toInt = 50000 := by decide
  have e2 : (49999#32 : BitVec 32).toInt = 49999 := by decide
  have g0 : (0#32 : BitVec 32).sle w = true := (Predicate.ofBool_eq_one_iff _).mp (by unfold IntOp.cmpi at h0; exact h0)
  have g1 : w.slt 50000#32 = true := (Predicate.ofBool_eq_one_iff _).mp (by unfold IntOp.cmpi at h1; exact h1)
  have k0 : (0 : Int) ≤ w.toInt := by
    have := of_decide_eq_true (show decide ((0#32 : BitVec 32).toInt ≤ w.toInt) = true from g0)
    rwa [e0] at this
  have k1 : w.toInt < 50000 := by
    have := of_decide_eq_true (show decide (w.toInt < (50000#32 : BitVec 32).toInt) = true from g1)
    rwa [e1] at this
  constructor
  · have hf : w.slt 0#32 = false := decide_eq_false (show ¬ w.toInt < (0#32 : BitVec 32).toInt by rw [e0]; omega)
    show BitVec.ofBool (w.slt 0#32) = 0#1
    rw [hf]; rfl
  · have ht : w.sle 49999#32 = true := decide_eq_true (show w.toInt ≤ (49999#32 : BitVec 32).toInt by rw [e2]; omega)
    show BitVec.ofBool (w.sle 49999#32) = 1#1
    rw [ht]; rfl

/-- Row 0 of the edge list as a vector: each edge's source word. -/
private def srcK (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge list as a vector: each edge's destination word. -/
private def dstK (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- An index word wrapped the way a take wraps it: a negative word has the row count added. -/
private def wrapK (src : (⟨S1600000, .i32⟩ : BufTy).Contents (Elt Ideal)) : (⟨S1600000, .i32⟩ : BufTy).Contents (Elt Ideal) :=
  select (cmpi .slt src (broadcastInDim S1600000 ![] bcast_S_S1600000 (constantI S_ 32 0#32)))
    (addi src (broadcastInDim S1600000 ![] bcast_S_S1600000 (constantI S_ 32 50000#32))) src

/-- The wrapped words as a column of one-word index vectors. -/
private def idxK (src : (⟨S1600000, .i32⟩ : BufTy).Contents (Elt Ideal)) : (⟨S1600000x1, .i32⟩ : BufTy).Contents (Elt Ideal) :=
  broadcastInDim S1600000x1 ![0] bcast_S1600000_S1600000x1_0 (wrapK src)

/-- Per edge, the two range tests of its wrapped word, and-ed. -/
private def testK (src : (⟨S1600000, .i32⟩ : BufTy).Contents (Elt Ideal)) : (⟨S1600000x1, .i1⟩ : BufTy).Contents (Elt Ideal) :=
  andi (cmpi .sge (idxK src) (broadcastInDim S1600000x1 ![] bcast_S_S1600000x1 (constantI S_ 32 0#32)))
    (cmpi .sle (idxK src) (broadcastInDim S1600000x1 ![0, 1] bcast_S1x1_S1600000x1_0_1
      (broadcastInDim S1x1 ![1] bcast_S1_S1x1_1 (constantI S1 32 49999#32))))

/-- Per edge, whether its index vector is in range: the and-reduction of the tests over the unit axis. -/
private def maskK (src : (⟨S1600000, .i32⟩ : BufTy).Contents (Elt Ideal)) : (⟨S1600000, .i1⟩ : BufTy).Contents (Elt Ideal) :=
  Host.reduce IntOp.andi (testK src) (constantI S_ 1 1#1) reducesTo_S1600000x1_S1600000_d1 h_S_

/-- The take: the gathered rows where the index is in range, the not-a-number word elsewhere. -/
private def takeK (h : (⟨S50000x64, .f32⟩ : BufTy).Contents (Elt Ideal)) (src : (⟨S1600000, .i32⟩ : BufTy).Contents (Elt Ideal)) :
    (⟨S1600000x64, .f32⟩ : BufTy).Contents (Elt Ideal) :=
  select (broadcastInDim S1600000x64 ![0] bcast_S1600000_S1600000x64_0 (maskK src))
    (Host.gather gather_S50000x64_S1600000x1_S1600000x64_1_0_n_n_0_1_164 h (idxK src))
    (broadcastInDim S1600000x64 ![] bcast_S_S1600000x64 (constant (F := Ideal) S_ .f32 0x7FC00000#32))

/-- Each node's edge count, at least 1, laid along its row, from the destination words. -/
private def cntK (dst : (⟨S1600000, .i32⟩ : BufTy).Contents (Elt Ideal)) : (⟨S50000x64, .f32⟩ : BufTy).Contents (Elt Ideal) :=
  broadcastInDim S50000x64 ![0, 1] bcast_S50000x1_S50000x64_0_1
    (broadcastInDim S50000x1 ![0] bcast_S50000_S50000x1_0
      (maximumf
        (Host.scatterAdd (F := Ideal) scatter_S50000_S1600000x1_S1600000_n_0_0_1
          (broadcastInDim S50000 ![] bcast_S_S50000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S50000 ![] bcast_S_S50000 (constant (F := Ideal) S_ .f32 0x3F800000#32))))

/-- The rows `u` (one per edge) added into their destination rows, each row then divided by its node's edge count. -/
private def meanK (u : (⟨S1600000x64, .f32⟩ : BufTy).Contents (Elt Ideal)) (dst : (⟨S1600000, .i32⟩ : BufTy).Contents (Elt Ideal)) :
    (⟨S50000x64, .f32⟩ : BufTy).Contents (Elt Ideal) :=
  Host.divf (F := Ideal)
    (Host.scatterAdd (F := Ideal) scatter_S50000x64_S1600000x1_S1600000x64_1_0_0_1
      (broadcastInDim S50000x64 ![] bcast_S_S50000x64 (constant (F := Ideal) S_ .f32 0x00000000#32))
      (broadcastInDim S1600000x1 ![0] bcast_S1600000_S1600000x1_0 dst)
      u)
    (cntK dst)

/-- A selection by a broadcast array of 1s is its first branch. -/
private theorem select_bcast_ones {s t : Shape} {α : Type} (dims : Fin s.rank → Fin t.rank) (hb : s.BroadcastsInDim t dims)
    (k : s.Idx → BitVec 1) (hk : ∀ j, k j = 1#1) (a b : t.Idx → α) :
    select (broadcastInDim t dims hb k) a b = a := by
  funext i
  show Scalar.select (k _) (a i) (b i) = a i
  rw [hk, select_one]

/-- With every index word a node id, a wrapped word is the word. -/
private theorem wrapK_apply (src : (⟨S1600000, .i32⟩ : BufTy).Contents (Elt Ideal))
    (hs : ∀ j, IntOp.cmpi .sge (src j) 0#32 = 1#1 ∧ IntOp.cmpi .slt (src j) 50000#32 = 1#1) (j : S1600000.Idx) :
    wrapK src j = src j := by
  show Scalar.select (IntOp.cmpi .slt (src j) 0#32) (IntOp.addi (src j) 50000#32) (src j) = src j
  rw [(word_in_range _ (hs j).1 (hs j).2).1, select_zero]

/-- With every index word a node id, both range tests hold at every edge. -/
private theorem testK_apply (src : (⟨S1600000, .i32⟩ : BufTy).Contents (Elt Ideal))
    (hs : ∀ j, IntOp.cmpi .sge (src j) 0#32 = 1#1 ∧ IntOp.cmpi .slt (src j) 50000#32 = 1#1) (i : S1600000x1.Idx) :
    testK src i = 1#1 := by
  obtain ⟨j, hj⟩ : ∃ j, idxK src i = src j := ⟨_, wrapK_apply src hs _⟩
  show IntOp.andi (IntOp.cmpi .sge (idxK src i) 0#32) (IntOp.cmpi .sle (idxK src i) 49999#32) = 1#1
  rw [hj, (hs j).1, (word_in_range _ (hs j).1 (hs j).2).2]
  decide

/-- With every index word a node id, the take is the plain gather at the wrapped words. -/
private theorem takeK_eq (h : (⟨S50000x64, .f32⟩ : BufTy).Contents (Elt Ideal)) (src : (⟨S1600000, .i32⟩ : BufTy).Contents (Elt Ideal))
    (hs : ∀ j, IntOp.cmpi .sge (src j) 0#32 = 1#1 ∧ IntOp.cmpi .slt (src j) 50000#32 = 1#1) :
    takeK h src = Host.gather gather_S50000x64_S1600000x1_S1600000x64_1_0_n_n_0_1_164 h (idxK src) := by
  have hm : ∀ j, maskK src j = 1#1 := by
    intro j
    unfold maskK
    exact Cert.LibAllOnes.reduce_andi_of_all _ _ _ _ j rfl (testK_apply src hs)
  unfold takeK
  exact select_bcast_ones _ _ (maskK src) hm _ _

/-- With every source word a node id, the mean over incoming edges of the taken rows is the reference's mean aggregation. -/
private theorem meanK_take_eq (h : (⟨S50000x64, .f32⟩ : BufTy).Contents (Elt Ideal)) (ei : (⟨S2x1600000, .i32⟩ : BufTy).Contents (Elt Ideal))
    (hsrc : Cert.Spec.SrcOk ei) :
    meanK (takeK h (srcK ei)) (dstK ei) = Cert.ReferenceIdeal.Hand.aggR (F := Ideal) h ei := by
  have hs : ∀ j, IntOp.cmpi .sge (srcK ei j) 0#32 = 1#1 ∧ IntOp.cmpi .slt (srcK ei j) 50000#32 = 1#1 := hsrc
  rw [takeK_eq h (srcK ei) hs]
  unfold meanK Cert.ReferenceIdeal.Hand.aggR
  have p1 : cntK (dstK ei) = Cert.ReferenceIdeal.Read.val_main_v47 (F := Ideal) ei := rfl
  have p2 : idxK (srcK ei) = Cert.ReferenceIdeal.Read.val_main_v35 (F := Ideal) ei := rfl
  have p3 : broadcastInDim S1600000x1 ![0] bcast_S1600000_S1600000x1_0 (dstK ei)
      = Cert.ReferenceIdeal.Read.val_main_v38 (F := Ideal) ei := rfl
  have p4 : broadcastInDim S50000x64 ![] bcast_S_S50000x64 (constant (F := Ideal) S_ .f32 0x00000000#32)
      = Cert.ReferenceIdeal.Read.val_main_v37 (F := Ideal) := rfl
  have p5 : scatter_S50000x64_S1600000x1_S1600000x64_1_0_0_1
      = Cert.ReferenceIdeal.scatter_S50000x64_S1600000x1_S1600000x64_1_0_0_1 := rfl
  have p6 : gather_S50000x64_S1600000x1_S1600000x64_1_0_n_n_0_1_164
      = Cert.ReferenceIdeal.gather_S50000x64_S1600000x1_S1600000x64_1_0_n_n_0_1_164 := rfl
  rw [p1, p2, p3, p4, p5, p6]

/-! ## The stretches between the regions, each read over any contents it starts from -/

/-- The first stretch leaves the source words in its second result. -/
private theorem after1_src (V : Valuation τ sig (Elt Ideal)) :
    StableHlo.after (hostOps1 (F := Ideal)) V (Proc.devRef .tc main_v5) = srcK (V (Proc.devRef .tc main_arg7)) := by
  after_results
  rfl

/-- The first stretch leaves the destination words in its fourth result. -/
private theorem after1_dst (V : Valuation τ sig (Elt Ideal)) :
    StableHlo.after (hostOps1 (F := Ideal)) V (Proc.devRef .tc main_v7) = dstK (V (Proc.devRef .tc main_arg7)) := by
  after_results
  rfl

/-- At a literal reference the transport between the value's type and the buffer's is the identity: the three the
    second stretch meets outside a there-and-back pair. -/
private theorem toBuf_v8 (h1 h2 h3) (v : (⟨S1600000x64, .f32⟩ : BufTy).Contents (Elt Ideal)) :
    (TRef.of (sig := sig) (T := ⟨S1600000x64, .f32⟩) main_v8 h1 h2 h3).toBuf v = v := rfl
private theorem ofBuf_v5 (h1 h2 h3) (v : (⟨S1600000, .i32⟩ : BufTy).Contents (Elt Ideal)) :
    (TRef.of (sig := sig) (T := ⟨S1600000, .i32⟩) main_v5 h1 h2 h3).ofBuf v = v := rfl
private theorem ofBuf_v3_0 (h1 h2 h3) (v : (⟨S50000x64, .f32⟩ : BufTy).Contents (Elt Ideal)) :
    (TRef.of (sig := sig) (T := ⟨S50000x64, .f32⟩) main_v3_0 h1 h2 h3).ofBuf v = v := rfl

/-- The second stretch is the take of the hidden array's rows at the source words. -/
private theorem after11_take (V : Valuation τ sig (Elt Ideal)) :
    StableHlo.after (hostOps1_1 (F := Ideal)) V (Proc.devRef .tc main_v8)
      = takeK (V (Proc.devRef .tc main_v3_0)) (V (Proc.devRef .tc main_v5)) := by
  after_results_simp
  simp only [Cert.LibTRef.ofBuf_toBuf, toBuf_v8, ofBuf_v5, ofBuf_v3_0]
  rfl

/-- The third stretch adds the taken rows into their destination rows and divides by the counts. -/
private theorem after12_mean (V : Valuation τ sig (Elt Ideal)) :
    StableHlo.after (hostOps1_2 (F := Ideal)) V (Proc.devRef .tc main_v20)
      = meanK (V (Proc.devRef .tc main_v8)) (V (Proc.devRef .tc main_v7)) := by
  after_results_simp
  rfl

/-! ## What region 0 finds -/

theorem V1_x (c : Dev nD) : V1 m ρ c main_arg0 = m ((c : Thread nD τ).loc main_arg0) := by
  show StableHlo.after hostOps0 (W0 m ρ c) (Proc.devRef .tc main_arg0) = _
  no_write hostOps0
theorem V1_mask (c : Dev nD) : V1 m ρ c main_arg1 = m ((c : Thread nD τ).loc main_arg1) := by
  show StableHlo.after hostOps0 (W0 m ρ c) (Proc.devRef .tc main_arg1) = _
  no_write hostOps0
theorem V1_wr (c : Dev nD) : V1 m ρ c main_arg6 = m ((c : Thread nD τ).loc main_arg6) := by
  show StableHlo.after hostOps0 (W0 m ρ c) (Proc.devRef .tc main_arg6) = _
  no_write hostOps0
/-- The scale row region 0 finds is the scale vector. -/
theorem V1_gamma (c : Dev nD) (q : Fin 64) : V1 m ρ c main_v0 (ix2 (0 : Fin 1) q) = m ((c : Thread nD τ).loc main_arg2) (ix1 q) := by
  have e : V1 m ρ c main_v0 = shapeCast S1x64 (m ((c : Thread nD τ).loc main_arg2)) shapeCasts_S64_S1x64 := by
    show StableHlo.after hostOps0 (W0 m ρ c) (Proc.devRef .tc main_v0) = _
    after_results
    rfl
  rw [e]
  exact row_of_vec _ q
/-- The shift row region 0 finds is the shift vector. -/
theorem V1_beta (c : Dev nD) (q : Fin 64) : V1 m ρ c main_v1 (ix2 (0 : Fin 1) q) = m ((c : Thread nD τ).loc main_arg3) (ix1 q) := by
  have e : V1 m ρ c main_v1 = shapeCast S1x64 (m ((c : Thread nD τ).loc main_arg3)) shapeCasts_S64_S1x64 := by
    show StableHlo.after hostOps0 (W0 m ρ c) (Proc.devRef .tc main_v1) = _
    after_results
    rfl
  rw [e]
  exact row_of_vec _ q

/-! ## What region 1 finds -/

theorem V5_wl (c : Dev nD) : V5 m ρ c main_arg4 = m ((c : Thread nD τ).loc main_arg4) :=
  calc W5 m ρ c (Proc.devRef .tc main_arg4)
    _ = W4 m ρ c (Proc.devRef .tc main_arg4) := by no_write hostOps1_2
    _ = W3 m ρ c (Proc.devRef .tc main_arg4) := by no_write hostOps1_1
    _ = W2 m ρ c (Proc.devRef .tc main_arg4) := by no_write hostOps1
    _ = W1 m ρ c (Proc.devRef .tc main_arg4) := W2_of_ne m ρ c main_arg4 (by decide)
    _ = W0 m ρ c (Proc.devRef .tc main_arg4) := by no_write hostOps0
    _ = m ((c : Thread nD τ).loc main_arg4) := rfl
/-- The bias row region 1 finds is the bias vector. -/
theorem V5_bl (c : Dev nD) (q : Fin 64) : V5 m ρ c main_v2 (ix2 (0 : Fin 1) q) = m ((c : Thread nD τ).loc main_arg5) (ix1 q) := by
  have e : V5 m ρ c main_v2 = shapeCast S1x64 (m ((c : Thread nD τ).loc main_arg5)) shapeCasts_S64_S1x64 :=
    calc W5 m ρ c (Proc.devRef .tc main_v2)
      _ = W4 m ρ c (Proc.devRef .tc main_v2) := by no_write hostOps1_2
      _ = W3 m ρ c (Proc.devRef .tc main_v2) := by no_write hostOps1_1
      _ = W2 m ρ c (Proc.devRef .tc main_v2) := by no_write hostOps1
      _ = W1 m ρ c (Proc.devRef .tc main_v2) := W2_of_ne m ρ c main_v2 (by decide)
      _ = shapeCast S1x64 (m ((c : Thread nD τ).loc main_arg5)) shapeCasts_S64_S1x64 := by
        show StableHlo.after hostOps0 (W0 m ρ c) (Proc.devRef .tc main_v2) = _
        after_results
        rfl
  rw [e]
  exact row_of_vec _ q
/-- The partial result region 1 finds is what region 0 left in its second output array. -/
theorem V5_partial (c : Dev nD) : V5 m ρ c main_v3_1 = (dat0 (F := Ideal) (V1 m ρ) c).arrAt 6 cfg0.N :=
  calc W5 m ρ c (Proc.devRef .tc main_v3_1)
    _ = W4 m ρ c (Proc.devRef .tc main_v3_1) := by no_write hostOps1_2
    _ = W3 m ρ c (Proc.devRef .tc main_v3_1) := by no_write hostOps1_1
    _ = W2 m ρ c (Proc.devRef .tc main_v3_1) := by no_write hostOps1
    _ = (dat0 (F := Ideal) (V1 m ρ) c).arrAt 6 cfg0.N := W2_arr m ρ c 6
/-- The aggregated array region 1 finds: with every source word a node id, the mean aggregation of the hidden array
    region 0 left in its first output array. -/
theorem V5_agg (c : Dev nD) (hsrc : Cert.Spec.SrcOk (m ((c : Thread nD τ).loc main_arg7))) :
    V5 m ρ c main_v20
      = Cert.ReferenceIdeal.Hand.aggR (F := Ideal) ((dat0 (F := Ideal) (V1 m ρ) c).arrAt 5 cfg0.N) (m ((c : Thread nD τ).loc main_arg7)) := by
  have e7 : W2 m ρ c (Proc.devRef .tc main_arg7) = m ((c : Thread nD τ).loc main_arg7) :=
    calc W2 m ρ c (Proc.devRef .tc main_arg7)
      _ = W1 m ρ c (Proc.devRef .tc main_arg7) := W2_of_ne m ρ c main_arg7 (by decide)
      _ = W0 m ρ c (Proc.devRef .tc main_arg7) := by no_write hostOps0
      _ = m ((c : Thread nD τ).loc main_arg7) := rfl
  have e5 : W2 m ρ c (Proc.devRef .tc main_v3_0) = (dat0 (F := Ideal) (V1 m ρ) c).arrAt 5 cfg0.N := W2_arr m ρ c 5
  have a5 : W3 m ρ c (Proc.devRef .tc main_v5) = srcK (W2 m ρ c (Proc.devRef .tc main_arg7)) := after1_src (W2 m ρ c)
  have a7 : W3 m ρ c (Proc.devRef .tc main_v7) = dstK (W2 m ρ c (Proc.devRef .tc main_arg7)) := after1_dst (W2 m ρ c)
  have a30 : W3 m ρ c (Proc.devRef .tc main_v3_0) = W2 m ρ c (Proc.devRef .tc main_v3_0) := by no_write hostOps1
  have b8 : W4 m ρ c (Proc.devRef .tc main_v8)
      = takeK (W3 m ρ c (Proc.devRef .tc main_v3_0)) (W3 m ρ c (Proc.devRef .tc main_v5)) := after11_take (W3 m ρ c)
  have b7 : W4 m ρ c (Proc.devRef .tc main_v7) = W3 m ρ c (Proc.devRef .tc main_v7) := by no_write hostOps1_1
  have d20 : V5 m ρ c main_v20 = meanK (W4 m ρ c (Proc.devRef .tc main_v8)) (W4 m ρ c (Proc.devRef .tc main_v7)) :=
    after12_mean (W4 m ρ c)
  rw [d20, b8, b7, a30, a5, a7, e5, e7]
  exact meanK_take_eq _ _ hsrc

end Cert.KernelIdeal.HostMid

end
-- ==== Proof.KernelValue.lean ====
/-
  The kernel program's result as ONE function of the launch arrays.

  Region 1's output array is its expression of what it finds; what it finds is the mean aggregation of region 0's
  hidden array, region 0's partial result, the first weight and the bias; region 0's arrays are the hidden array and
  its product with the second weight's rows, of the launch arrays. Substituting, the result buffer holds the layer's
  formula `outA` of the launch arrays, provided every source word of the edge list is a node id.
-/
import proofs.«412013_j21277267984968_1_alg».proof.Proof.KernelRun
import proofs.«412013_j21277267984968_1_alg».proof.Proof.Region0Value
import proofs.«412013_j21277267984968_1_alg».proof.Proof.Region1Value
import proofs.«412013_j21277267984968_1_alg».proof.Proof.HostMid

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The hidden array of the launch arrays. -/
abbrev H (c : Dev nD) : Cert.Spec.SN.Idx → EReal :=
  Cert.Spec.hidA (m ((c : Thread nD τ).loc main_arg0)) (m ((c : Thread nD τ).loc main_arg1))
    (fun q => m ((c : Thread nD τ).loc main_arg2) (ix1 q)) (fun q => m ((c : Thread nD τ).loc main_arg3) (ix1 q))

/-- The layer's result of the launch arrays. -/
def G (c : Dev nD) : Cert.Spec.SN.Idx → EReal :=
  Cert.Spec.outA (Cert.ReferenceIdeal.Hand.aggR (F := Ideal) (H m c) (m ((c : Thread nD τ).loc main_arg7))) (H m c)
    (m ((c : Thread nD τ).loc main_arg4)) (fun q => m ((c : Thread nD τ).loc main_arg5) (ix1 q)) (m ((c : Thread nD τ).loc main_arg6))

/-- The scale row region 0 finds, as a function of the feature, is the scale vector's. -/
theorem gamma_row (c : Dev nD) :
    (fun q : Fin 64 => V1 m ρ c main_v0 (ix2 (0 : Fin 1) q)) = fun q => m ((c : Thread nD τ).loc main_arg2) (ix1 q) :=
  funext (HostMid.V1_gamma m ρ c)
/-- The shift row region 0 finds, as a function of the feature, is the shift vector's. -/
theorem beta_row (c : Dev nD) :
    (fun q : Fin 64 => V1 m ρ c main_v1 (ix2 (0 : Fin 1) q)) = fun q => m ((c : Thread nD τ).loc main_arg3) (ix1 q) :=
  funext (HostMid.V1_beta m ρ c)

/-- The hidden array of what region 0 finds is the hidden array of the launch arrays. -/
theorem hidA_found (c : Dev nD) :
    Cert.Spec.hidA (V1 m ρ c main_arg0) (V1 m ρ c main_arg1) (fun q => V1 m ρ c main_v0 (ix2 (0 : Fin 1) q))
        (fun q => V1 m ρ c main_v1 (ix2 (0 : Fin 1) q)) = H m c :=
  congr (congr (congrArg₂ Cert.Spec.hidA (HostMid.V1_x m ρ c) (HostMid.V1_mask m ρ c)) (gamma_row m ρ c)) (beta_row m ρ c)

/-- What region 0 leaves in its first output array: the hidden array of the launch arrays. -/
theorem hidden_eq (c : Dev nD) : (dat0 (F := Ideal) (V1 m ρ) c).arrAt 5 cfg0.N = H m c :=
  (Region0.arr_hidden (V1 m ρ) c).trans (hidA_found m ρ c)

/-- What region 0 leaves in its second output array: the hidden array against the rows of the second weight. -/
theorem partial_eq (c : Dev nD) (r : Fin 50000) (q : Fin 64) :
    (dat0 (F := Ideal) (V1 m ρ) c).arrAt 6 cfg0.N (ix2 r q) = Cert.Spec.lin (H m c) (m ((c : Thread nD τ).loc main_arg6)) r q :=
  (congrFun (Region0.arr_partial (V1 m ρ) c) (ix2 r q)).trans
    (congrArg₂ (fun a w => Cert.Spec.lin a w r q) (hidA_found m ρ c) (HostMid.V1_wr m ρ c))

/-- THE RESULT BUFFER at the last boundary: the layer's formula of the launch arrays. -/
theorem out_value (c : Dev nD) (hsrc : Cert.Spec.SrcOk (m ((c : Thread nD τ).loc main_arg7))) :
    W6 m ρ c (Proc.devRef .tc main_v21) = G m c := by
  refine (W6_arr m ρ c 4).trans ((Region1.arr_out (V5 m ρ) c).trans ?_)
  funext i
  obtain ⟨r, q, rfl⟩ : ∃ (r : Fin 50000) (q : Fin 64), i = ix2 r q := ⟨i 0, i 1, eq_ix2 i⟩
  -- the aggregated array region 1 finds is the mean aggregation of the hidden array of the launch arrays
  have e1 : V5 m ρ c main_v20 = Cert.ReferenceIdeal.Hand.aggR (F := Ideal) (H m c) (m ((c : Thread nD τ).loc main_arg7)) :=
    (HostMid.V5_agg m ρ c hsrc).trans
      (congrArg (fun h => Cert.ReferenceIdeal.Hand.aggR (F := Ideal) h (m ((c : Thread nD τ).loc main_arg7))) (hidden_eq m ρ c))
  have e4 : V5 m ρ c main_v3_1 (ix2 r q) = Cert.Spec.lin (H m c) (m ((c : Thread nD τ).loc main_arg6)) r q :=
    (congrFun (HostMid.V5_partial m ρ c) (ix2 r q)).trans (partial_eq m ρ c r q)
  exact congrArg₂ (· + ·)
    (congrArg₂ (· + ·) (congrArg₂ (fun a w => Cert.Spec.lin a w r q) e1 (HostMid.V5_wl m ρ c)) (HostMid.V5_bl m ρ c q)) e4

end Cert.KernelIdeal.Whole

end
-- ==== Proof.PreDecode.lean ====
/-
  The precondition read: its last conjunct says every source word of the edge list is a node id.

  The precondition is a conjunction of `all`-reductions joined by `and`; the last of them reduces, over the 1600000
  edges, the conjunction of `src ≥ 0` and `src < 50000` (signed) of row 0 of the edge list. The whole being 1, that
  reduction is 1, so every entry it reduces is 1.
-/
import proofs.«412013_j21277267984968_1_alg».proof.Defs
import proofs.«412013_j21277267984968_1_alg».proof.Proof.Gen.Pre_finite_inputs
import proofs.«412013_j21277267984968_1_alg».proof.Proof.SrcRange
import Idealize.ShloMosaic.Lib.ReduceAll
import Idealize.ShloMosaic.Lib.StableHlo.Predicate
import Idealize.ShloMosaic.Lib.ValueIdx

set_option maxRecDepth 16384

noncomputable section

namespace Cert.PreDecode

open Idealize.ShloMosaic Idealize.ShloMosaic.TcCoe Idealize.SL.Sem

/-- A scalar result has one index. -/
instance : Subsingleton Cert.Pre_finite_inputs.S_.Idx := ⟨fun a b => funext fun d => d.elim0⟩

/-- Under the precondition every source word of the edge list is a node id. -/
theorem srcOk_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.SrcOk (m ((c.tc : Thread Cert.KernelIdeal.nD Cert.KernelIdeal.τ).loc Cert.KernelIdeal.main_arg7)) := by
  intro j
  -- the precondition at the one index of its scalar result
  have e := congrFun (h c) ValueIdx.ix0
  unfold Cert.Pre_finite_inputs.fn Cert.Pre_finite_inputs.fn_part1 Cert.Pre_finite_inputs.fn_part2 at e
  dsimp only at e
  -- the last conjunct: the `all` over the edges
  have e2 := (IntOp.andi_eq_one.1 e).2
  -- every entry it reduces is 1: at edge `j`, the conjunction of the two compares
  have e3 := Host.reduce_andi_all _ _ _ _ _ e2 j
  exact IntOp.andi_eq_one.1 e3

end Cert.PreDecode

end
-- ==== Proof.RefValue.lean ====
/-
  The reference's result, index by index: the layer's formula `outA` of its own mean aggregation of the hidden array.

  The reference normalises each row (sums over the 64 features, the quotient by 64, the offset, the reciprocal square
  root), scales, shifts, rectifies and masks: entry by entry that is `hid`. Its two matrix products against transposed
  weights are the sums `lin`, and its result adds them with the bias in the order `outA` does.
-/
import proofs.«412013_j21277267984968_1_alg».proof.Proof.Gen.ReferenceIdeal.Read
import proofs.«412013_j21277267984968_1_alg».proof.Proof.RefAgg
import proofs.«412013_j21277267984968_1_alg».proof.Proof.Spec
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx

open scoped BigOperators

/-- The one column index of an `[a, 1]` array. -/
private abbrev c0 : Fin 1 := ⟨0, Nat.one_pos⟩

/-- The quotient of the row sum by 64 is the row mean. -/
private theorem mean_at (x0 : (⟨S50000x64, .f32⟩ : BufTy).Contents (Elt Ideal)) (r : Fin 50000) (j : Fin 1) :
    val_main_v3 (F := Ideal) x0 (ix2 r j) = Cert.Spec.mean x0 r := by
  have e : ∀ k : Fin 64, idx_main_v0 (idx_main_v1 (ix2 r j)) k = ix2 r k := fun k =>
    funext fun a => Fin.ext (by match a with | ⟨0, _⟩ => rfl | ⟨1, _⟩ => rfl)
  rw [val_main_v3_apply, val_main_v1_apply, val_main_v0_apply, val_main_v2_apply, val_main_cst_apply,
    val_main_cst_0_apply]
  simp only [e, Ideal.hostDivf_def, Ideal.ofBits_def, Ideal.ofBits_zero_f32, zero_add]
  rfl

/-- An entry less its row's mean. -/
private theorem cen_at (x0 : (⟨S50000x64, .f32⟩ : BufTy).Contents (Elt Ideal)) (r : Fin 50000) (q : Fin 64) :
    val_main_v5 (F := Ideal) x0 (ix2 r q) = x0 (ix2 r q) - Cert.Spec.mean x0 r := by
  have e : idx_main_v4 (ix2 r q) = ix2 r c0 :=
    funext fun a => Fin.ext (by match a with | ⟨0, _⟩ => rfl | ⟨1, _⟩ => rfl)
  rw [val_main_v5_apply, val_main_v4_apply, e, mean_at, Ideal.subf_def]

/-- The quotient by 64 of the row sum of squared centred entries is the row variance. -/
private theorem var_at (x0 : (⟨S50000x64, .f32⟩ : BufTy).Contents (Elt Ideal)) (r : Fin 50000) (j : Fin 1) :
    val_main_v10 (F := Ideal) x0 (ix2 r j) = Cert.Spec.var x0 r := by
  have e : ∀ k : Fin 64, idx_main_v7 (idx_main_v8 (ix2 r j)) k = ix2 r k := fun k =>
    funext fun a => Fin.ext (by match a with | ⟨0, _⟩ => rfl | ⟨1, _⟩ => rfl)
  rw [val_main_v10_apply, val_main_v8_apply, val_main_v7_apply, val_main_v9_apply, val_main_cst_1_apply,
    val_main_cst_2_apply]
  simp only [e, val_main_v6_apply, cen_at, Ideal.hostDivf_def, Ideal.mulf_def, Ideal.ofBits_def,
    Ideal.ofBits_zero_f32, zero_add]
  rfl

/-- One entry of the reference's hidden array: normalised, scaled, shifted, rectified, masked. -/
private theorem hid_at (x0 x1 : (⟨S50000x64, .f32⟩ : BufTy).Contents (Elt Ideal))
    (x2 x3 : (⟨S64, .f32⟩ : BufTy).Contents (Elt Ideal)) (r : Fin 50000) (q : Fin 64) :
    val_main_v25 (F := Ideal) x0 x1 x2 x3 (ix2 r q)
      = Cert.Spec.hid x0 x1 (fun q => x2 (ix1 q)) (fun q => x3 (ix1 q)) r q := by
  have e11 : idx_main_v11 (ix2 r q) = ix2 r c0 :=
    funext fun a => Fin.ext (by match a with | ⟨0, _⟩ => rfl | ⟨1, _⟩ => rfl)
  have e16 : idx_main_v16 (ix2 r q) = ix2 r c0 :=
    funext fun a => Fin.ext (by match a with | ⟨0, _⟩ => rfl | ⟨1, _⟩ => rfl)
  have e19 : idx_main_v18 (idx_main_v19 (ix2 r q)) = ix1 q :=
    funext fun a => Fin.ext (by match a with | ⟨0, _⟩ => rfl)
  have e22 : idx_main_v21 (idx_main_v22 (ix2 r q)) = ix1 q :=
    funext fun a => Fin.ext (by match a with | ⟨0, _⟩ => rfl)
  rw [val_main_v25_apply, val_main_v24_apply, val_main_v23_apply, val_main_v20_apply, val_main_v17_apply,
    val_main_v12_apply, val_main_v11_apply, val_main_v16_apply, val_main_v15_apply, val_main_v14_apply,
    val_main_v13_apply, val_main_cst_3_apply, val_main_v19_apply, val_main_v18_apply, val_main_v22_apply,
    val_main_v21_apply, val_main_call0_v0_apply, val_main_call0_cst_apply, e11, e16, e19, e22, mean_at, var_at]
  simp only [Ideal.addf_def, Ideal.subf_def, Ideal.mulf_def, Ideal.maximumf_def, Ideal.hostUnary_rsqrt_def,
    Ideal.ofBits_def, Ideal.ofBits_zero_f32]
  rfl

/-- The reference's hidden array is the layer's hidden array of its arguments. -/
theorem hidden_value (x0 x1 : (⟨S50000x64, .f32⟩ : BufTy).Contents (Elt Ideal)) (x2 x3 : (⟨S64, .f32⟩ : BufTy).Contents (Elt Ideal)) :
    val_main_v25 (F := Ideal) x0 x1 x2 x3 = Cert.Spec.hidA x0 x1 (fun q => x2 (ix1 q)) (fun q => x3 (ix1 q)) := by
  funext i
  obtain ⟨r, q, rfl⟩ : ∃ (r : Fin 50000) (q : Fin 64), i = ix2 r q := ⟨i 0, i 1, eq_ix2 i⟩
  rw [hid_at, Cert.Spec.hidA_apply]

/-- The reference's result is the layer's formula of its arguments. -/
theorem ref_value (x0 x1 : (⟨S50000x64, .f32⟩ : BufTy).Contents (Elt Ideal)) (x2 x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S2x1600000, .i32⟩ : BufTy).Contents (Elt Ideal)) :
    val_main_v56 (F := Ideal) x0 x1 x2 x3 x4 x5 x6 x7
      = Cert.Spec.outA (aggR (F := Ideal) (Cert.Spec.hidA x0 x1 (fun q => x2 (ix1 q)) (fun q => x3 (ix1 q))) x7)
          (Cert.Spec.hidA x0 x1 (fun q => x2 (ix1 q)) (fun q => x3 (ix1 q))) x4 (fun q => x5 (ix1 q)) x6 := by
  funext i
  obtain ⟨r, q, rfl⟩ : ∃ (r : Fin 50000) (q : Fin 64), i = ix2 r q := ⟨i 0, i 1, eq_ix2 i⟩
  have el : ∀ k : Fin 64, lidx_main_v50 (ix2 r q) k = ix2 r k := fun k =>
    funext fun a => Fin.ext (by match a with | ⟨0, _⟩ => rfl | ⟨1, _⟩ => rfl)
  have er : ∀ k : Fin 64, idx_main_v49 (ridx_main_v50 (ix2 r q) k) = ix2 q k := fun k =>
    funext fun a => Fin.ext (by match a with | ⟨0, _⟩ => rfl | ⟨1, _⟩ => rfl)
  have el' : ∀ k : Fin 64, lidx_main_v55 (ix2 r q) k = ix2 r k := fun k =>
    funext fun a => Fin.ext (by match a with | ⟨0, _⟩ => rfl | ⟨1, _⟩ => rfl)
  have er' : ∀ k : Fin 64, idx_main_v54 (ridx_main_v55 (ix2 r q) k) = ix2 q k := fun k =>
    funext fun a => Fin.ext (by match a with | ⟨0, _⟩ => rfl | ⟨1, _⟩ => rfl)
  have e5 : idx_main_v51 (idx_main_v52 (ix2 r q)) = ix1 q :=
    funext fun a => Fin.ext (by match a with | ⟨0, _⟩ => rfl)
  rw [val_main_v56_apply, val_main_v53_apply, val_main_v50_apply, val_main_v55_apply, val_main_v52_apply,
    val_main_v51_apply, e5, Cert.Spec.outA_apply]
  simp only [val_main_v49_apply, val_main_v54_apply, el, er, el', er', val_main_v48_eq, hidden_value,
    Ideal.addf_def]
  rfl

end Cert.ReferenceIdeal.Hand

end
-- ==== Proof.lean ====
/-
  The certificate of the layer: layer normalisation, ReLU and a mask over 64 features; the mean over each node's
  incoming edges of the source nodes' hidden rows; and two linear maps, `agg · W_lᵀ + b_l + h · W_rᵀ`.

  The kernel program computes the hidden array and `h · W_rᵀ` in a first region of 10 row blocks, aggregates on the
  host, and finishes in a second region; the reference does the same arithmetic on whole arrays. Over the extended reals
  a change of float format is the identity, a block's rows are the array's rows, and a matrix-unit product into zeros is
  the host's product, so both results are the one function `outA (aggR h) h` of the inputs (Proof/Spec.lean, Proof/RefAgg.lean).
  The one place the programs differ is the gather: the kernel program's take fills rows at out-of-range source words,
  where the reference clamps the word. The precondition's last conjunct keeps every source word a node id, so the fill
  never happens (Proof/PreDecode.lean, Proof/HostMid.lean). Finiteness of the float inputs is not used.

  The frames of both kernel programs are the generated ones; the reference's frame is its generated run with the
  result dropped. The idealization rewrote nothing, so `preserves` is trivial.
-/
import proofs.«412013_j21277267984968_1_alg».proof.Defs
import proofs.«412013_j21277267984968_1_alg».proof.Proof.Gen.Kernel
import proofs.«412013_j21277267984968_1_alg».proof.Proof.Gen.Kernel.Skeleton
import proofs.«412013_j21277267984968_1_alg».proof.Proof.Gen.Kernel.Launch
import proofs.«412013_j21277267984968_1_alg».proof.Proof.Gen.Kernel.Points
import proofs.«412013_j21277267984968_1_alg».proof.Proof.Gen.Kernel.Frame
import proofs.«412013_j21277267984968_1_alg».proof.Proof.Gen.KernelIdeal
import proofs.«412013_j21277267984968_1_alg».proof.Proof.Gen.KernelIdeal.Skeleton
import proofs.«412013_j21277267984968_1_alg».proof.Proof.Gen.KernelIdeal.Launch
import proofs.«412013_j21277267984968_1_alg».proof.Proof.Gen.KernelIdeal.Points
import proofs.«412013_j21277267984968_1_alg».proof.Proof.Gen.KernelIdeal.Frame
import proofs.«412013_j21277267984968_1_alg».proof.Proof.Gen.ReferenceIdeal
import proofs.«412013_j21277267984968_1_alg».proof.Proof.Gen.Pre_finite_inputs
import proofs.«412013_j21277267984968_1_alg».proof.Proof.Gen.ReferenceIdeal.Run
import proofs.«412013_j21277267984968_1_alg».proof.Proof.Gen.ReferenceIdeal.Read
import proofs.«412013_j21277267984968_1_alg».proof.Proof.KernelValue
import proofs.«412013_j21277267984968_1_alg».proof.Proof.PreDecode
import proofs.«412013_j21277267984968_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the layer's formula of the inputs: the kernel program's run read
    through its two regions and the host operations between them, every source word being a node id under the
    precondition; the reference's run read index by index; the inputs agree. -/
theorem algebraic : Cert.algebraic_KernelIdeal_ReferenceIdeal := by
  intro m ρ m' ρ' hpre hagree
  refine ⟨fun c => Cert.KernelIdeal.Whole.G m c, ?_, ?_⟩
  · exact (θ_run Cert.KernelIdeal.defs _ _).mono
      (fun r h c => ⟨(h c).1.trans (Cert.KernelIdeal.Whole.out_value m ρ c (Cert.PreDecode.srcOk_of_pre m hpre c)), (h c).2⟩)
      (Cert.KernelIdeal.GenRun.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v56_eq, Cert.ReferenceIdeal.Hand.ref_value, a0, a1, a2, a3, a4, a5, a6, a7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
